-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S8x360x128 : S_.BroadcastsInDim S8x360x128 (![] : Fin 0 → Fin S8x360x128.rank)
  reducesTo_S8x360x128_S_d0_1_2 : S8x360x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8x360x128 .f32) (main_arg1 : FVec F S128x256 .f32) (main_arg2 : FVec F S128 .f32) (main_arg3 : FVec F S1x128 .f32) (main_arg4 : FVec F S1 .f32) : IVec S_ 1 :=
  let main_v0 : FVec F S8x360x128 .f32 := Host.absf main_arg0
  let main_cst : FVec F S_ .f32 := constant S_ .f32 0x7F800000#32
  let main_v1 : FVec F S8x360x128 .f32 := broadcastInDim S8x360x128 ![] bcast_S_S8x360x128 main_cst
  let main_v2 : IVec S8x360x128 1 := cmpf .olt main_v0 main_v1
  let main_c : IVec S_ 1 := constantI S_ 1 1#1
  let main_v3 : IVec S_ 1 := (fun x v => Host.reduce IntOp.andi x v reducesTo_S8x360x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Kernel.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S128x128 : Shape := ⟨2, ![128, 128]⟩
abbrev S1x1 : Shape := ⟨2, ![1, 1]⟩
abbrev S1x360x128 : Shape := ⟨3, ![1, 360, 128]⟩
abbrev S360x128 : Shape := ⟨2, ![360, 128]⟩
abbrev S8x360x360 : Shape := ⟨3, ![8, 360, 360]⟩
abbrev S1x40x128 : Shape := ⟨3, ![1, 40, 128]⟩
abbrev S1x40x360 : Shape := ⟨3, ![1, 40, 360]⟩
abbrev S40x128 : Shape := ⟨2, ![40, 128]⟩
abbrev S40x1x128 : Shape := ⟨3, ![40, 1, 128]⟩
abbrev S40x360x128 : Shape := ⟨3, ![40, 360, 128]⟩
abbrev S1x1x128 : Shape := ⟨3, ![1, 1, 128]⟩
abbrev S40x360 : Shape := ⟨2, ![40, 360]⟩
abbrev S8x360x360x1 : Shape := ⟨4, ![8, 360, 360, 1]⟩

abbrev nBuf : Space → Nat
  | .hbm => 15
  | .vmem => 17
  | .smem => 0
  | _ => 0

abbrev bufTy : (tb : Table) → Fin (tcTables nBuf tb) → BufTy
  | .hbm, ⟨0, _⟩ => ⟨S8x360x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S1x1, .f32⟩
  | .hbm, ⟨11, _⟩ => ⟨S8x360x128, .f32⟩
  | .hbm, ⟨12, _⟩ => ⟨S8x360x128, .f32⟩
  | .hbm, ⟨13, _⟩ => ⟨S8x360x360, .f32⟩
  | .hbm, ⟨14, _⟩ => ⟨S8x360x360x1, .f32⟩
  | .local _ .vmem, ⟨0, _⟩ => ⟨S1x360x128, .f32⟩
  | .local _ .vmem, ⟨1, _⟩ => ⟨S1x360x128, .f32⟩
  | .local _ .vmem, ⟨2, _⟩ => ⟨S128x128, .f32⟩
  | .local _ .vmem, ⟨3, _⟩ => ⟨S128x128, .f32⟩
  | .local _ .vmem, ⟨4, _⟩ => ⟨S1x360x128, .f32⟩
  | .local _ .vmem, ⟨5, _⟩ => ⟨S1x360x128, .f32⟩
  | .local _ .vmem, ⟨6, _⟩ => ⟨S1x360x128, .f32⟩
  | .local _ .vmem, ⟨7, _⟩ => ⟨S1x360x128, .f32⟩
  | .local _ .vmem, ⟨8, _⟩ => ⟨S1x360x128, .f32⟩
  | .local _ .vmem, ⟨9, _⟩ => ⟨S1x360x128, .f32⟩
  | .local _ .vmem, ⟨10, _⟩ => ⟨S1x40x128, .f32⟩
  | .local _ .vmem, ⟨11, _⟩ => ⟨S1x40x128, .f32⟩
  | .local _ .vmem, ⟨12, _⟩ => ⟨S1x128, .f32⟩
  | .local _ .vmem, ⟨13, _⟩ => ⟨S1x128, .f32⟩
  | .local _ .vmem, ⟨14, _⟩ => ⟨S1x1, .f32⟩
  | .local _ .vmem, ⟨15, _⟩ => ⟨S1x40x360, .f32⟩
  | .local _ .vmem, ⟨16, _⟩ => ⟨S1x40x360, .f32⟩
  | _, _ => ⟨S8x360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x360x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x360x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x360x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 9], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x360x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x40x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x40x360 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  shapeCasts_S1_S1x1 : S1.ShapeCasts S1x1
  inb_S1x360x128_S1x360x128_0_0_0 : ∀ a, (![0, 0, 0] : Fin 3 → Nat) a + S1x360x128.size a ≤ S1x360x128.size a
  h_S1x360x128 : 0 < S1x360x128.numel
  shapeCasts_S1x360x128_S360x128 : S1x360x128.ShapeCasts S360x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S360x128_S1x360x128 : S360x128.ShapeCasts S1x360x128
  inb_S1x40x128_S1x40x128_0_0_0 : ∀ a, (![0, 0, 0] : Fin 3 → Nat) a + S1x40x128.size a ≤ S1x40x128.size a
  h_S1x40x128 : 0 < S1x40x128.numel
  shapeCasts_S1x40x128_S40x128 : S1x40x128.ShapeCasts S40x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  shapeCasts_S40x128_S40x1x128 : S40x128.ShapeCasts S40x1x128
  broadcasts_S40x1x128_S40x360x128 : S40x1x128.Broadcasts S40x360x128
  broadcasts_S1x360x128_S40x360x128 : S1x360x128.Broadcasts S40x360x128
  shapeCasts_S1x128_S1x1x128 : S1x128.ShapeCasts S1x1x128
  broadcasts_S1x1x128_S40x360x128 : S1x1x128.Broadcasts S40x360x128
  reduces_S40x360x128_S40x360 : S40x360x128.Reduces [2] S40x360
  inb_S1x40x360_S1x40x360_0_0_0 : ∀ a, (![0, 0, 0] : Fin 3 → Nat) a + S1x40x360.size a ≤ S1x40x360.size a
  h_S1x40x360 : 0 < S1x40x360.numel
  shapeCasts_S1x40x360_S40x360 : S1x40x360.ShapeCasts S40x360
  shapeCasts_S40x360_S1x40x360 : S40x360.ShapeCasts S1x40x360
  shapeCasts_S8x360x360_S8x360x360x1 : S8x360x360.ShapeCasts S8x360x360x1
  dot_S360x128_S128x128_S360x128_1_0_0_1_n_n_wf : DotDims.WF S360x128 S128x128 S360x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x360x128.size a ≤ S8x360x128.size a
  hwx0_0 : ∀ i : grid0.Coords, EltTy.bits .f32 = 32 ∨ (Rect.block (s := S8x360x128) S1x360x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x360x128.size a ≤ S8x360x128.size a
  hwx0_3 : ∀ i : grid0.Coords, EltTy.bits .f32 = 32 ∨ (Rect.block (s := S8x360x128) S1x360x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x360x128.size a ≤ S8x360x128.size a
  hwx0_4 : ∀ i : grid0.Coords, EltTy.bits .f32 = 32 ∨ (Rect.block (s := S8x360x128) S1x360x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x360x128.size a ≤ S8x360x128.size a
  hwx1_0 : ∀ i : grid1.Coords, EltTy.bits .f32 = 32 ∨ (Rect.block (s := S8x360x128) S1x360x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x40x128.size a ≤ S8x360x128.size a
  hwx1_1 : ∀ i : grid1.Coords, EltTy.bits .f32 = 32 ∨ (Rect.block (s := S8x360x128) S1x40x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x40x360.size a ≤ S8x360x360.size a
  hwx1_5 : ∀ i : grid1.Coords, EltTy.bits .f32 = 32 ∨ (Rect.block (s := S8x360x360) S1x40x360.size (cc1_transform_5 i) (hinb1_5 i)).WholeWords (EltTy.packing .f32)

variable [Facts₀]

def dot_S360x128_S128x128_S360x128_1_0_0_1_n_n : DotDims S360x128 S128x128 S360x128 where
  lhsContracting := [1]
  rhsContracting := [0]
  lhsNonContracting := [0]
  rhsNonContracting := [1]
  lhsBatch := []
  rhsBatch := []
  wf := dot_S360x128_S128x128_S360x128_1_0_0_1_n_n_wf

abbrev win0_0 : Pipeline.Window sig grid0 :=
  Pipeline.Window.ofSpec (Memref.whole main_arg0) S1x360x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x360x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x360x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S1x360x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x40x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x40x360.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x1x360x128 : Shape := ⟨4, ![8, 1, 360, 128]⟩
abbrev S8x360x360x128 : Shape := ⟨4, ![8, 360, 360, 128]⟩
abbrev S8x360x1x128 : Shape := ⟨4, ![8, 360, 1, 128]⟩
abbrev S8x360x360x256 : Shape := ⟨4, ![8, 360, 360, 256]⟩
abbrev S1x1x1x128 : Shape := ⟨4, ![1, 1, 1, 128]⟩
abbrev S_ : Shape := ⟨0, ![]⟩
abbrev S8x360x360x1 : Shape := ⟨4, ![8, 360, 360, 1]⟩
abbrev S1x1x1x1 : Shape := ⟨4, ![1, 1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x360x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S8x1x360x128, .f32⟩
  | .hbm, ⟨6, _⟩ => ⟨S8x360x360x128, .f32⟩
  | .hbm, ⟨7, _⟩ => ⟨S8x360x1x128, .f32⟩
  | .hbm, ⟨8, _⟩ => ⟨S8x360x360x128, .f32⟩
  | .hbm, ⟨9, _⟩ => ⟨S8x360x360x256, .f32⟩
  | .hbm, ⟨10, _⟩ => ⟨S8x360x360x128, .f32⟩
  | .hbm, ⟨11, _⟩ => ⟨S1x1x1x128, .f32⟩
  | .hbm, ⟨12, _⟩ => ⟨S8x360x360x128, .f32⟩
  | .hbm, ⟨13, _⟩ => ⟨S8x360x360x128, .f32⟩
  | .hbm, ⟨14, _⟩ => ⟨S_, .f32⟩
  | .hbm, ⟨15, _⟩ => ⟨S8x360x360x128, .f32⟩
  | .hbm, ⟨16, _⟩ => ⟨S8x360x360x128, .f32⟩
  | .hbm, ⟨17, _⟩ => ⟨S8x360x360x1, .f32⟩
  | .hbm, ⟨18, _⟩ => ⟨S1x1x1x1, .f32⟩
  | .hbm, ⟨19, _⟩ => ⟨S8x360x360x1, .f32⟩
  | .hbm, ⟨20, _⟩ => ⟨S8x360x360x1, .f32⟩
  | .hbm, ⟨21, _⟩ => ⟨S_, .f32⟩
  | .hbm, ⟨22, _⟩ => ⟨S8x360x360x1, .f32⟩
  | .hbm, ⟨23, _⟩ => ⟨S8x360x360x1, .f32⟩
  | _, _ => ⟨S8x360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_cst : Ref sig .tc := ⟨.hbm, 21, rfl⟩
abbrev main_call1_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x360x128_S8x1x360x128_0_2_3 : S8x360x128.BroadcastsInDim S8x1x360x128 (![0, 2, 3] : Fin 3 → Fin S8x1x360x128.rank)
  bcast_S8x1x360x128_S8x360x360x128_0_1_2_3 : S8x1x360x128.BroadcastsInDim S8x360x360x128 (![0, 1, 2, 3] : Fin 4 → Fin S8x360x360x128.rank)
  bcast_S8x360x128_S8x360x1x128_0_1_3 : S8x360x128.BroadcastsInDim S8x360x1x128 (![0, 1, 3] : Fin 3 → Fin S8x360x1x128.rank)
  bcast_S8x360x1x128_S8x360x360x128_0_1_2_3 : S8x360x1x128.BroadcastsInDim S8x360x360x128 (![0, 1, 2, 3] : Fin 4 → Fin S8x360x360x128.rank)
  concatenates_S8x360x360x128_S8x360x360x128_S8x360x360x256_d3 : Shape.Concatenates [S8x360x360x128, S8x360x360x128] S8x360x360x256 3
  bcast_S128_S1x1x1x128_3 : S128.BroadcastsInDim S1x1x1x128 (![3] : Fin 1 → Fin S1x1x1x128.rank)
  bcast_S1x1x1x128_S8x360x360x128_0_1_2_3 : S1x1x1x128.BroadcastsInDim S8x360x360x128 (![0, 1, 2, 3] : Fin 4 → Fin S8x360x360x128.rank)
  bcast_S_S8x360x360x128 : S_.BroadcastsInDim S8x360x360x128 (![] : Fin 0 → Fin S8x360x360x128.rank)
  bcast_S1_S1x1x1x1_3 : S1.BroadcastsInDim S1x1x1x1 (![3] : Fin 1 → Fin S1x1x1x1.rank)
  bcast_S1x1x1x1_S8x360x360x1_0_1_2_3 : S1x1x1x1.BroadcastsInDim S8x360x360x1 (![0, 1, 2, 3] : Fin 4 → Fin S8x360x360x1.rank)
  bcast_S_S8x360x360x1 : S_.BroadcastsInDim S8x360x360x1 (![] : Fin 0 → Fin S8x360x360x1.rank)
  dot_S8x360x360x256_S128x256_S8x360x360x128_3_1_012_0_n_n_wf : DotDims.WF S8x360x360x256 S128x256 S8x360x360x128 [3] [1] [0, 1, 2] [0] [] []
  dot_S8x360x360x128_S1x128_S8x360x360x1_3_1_012_0_n_n_wf : DotDims.WF S8x360x360x128 S1x128 S8x360x360x1 [3] [1] [0, 1, 2] [0] [] []

variable [Facts₀]

def dot_S8x360x360x256_S128x256_S8x360x360x128_3_1_012_0_n_n : DotDims S8x360x360x256 S128x256 S8x360x360x128 where
  lhsContracting := [3]
  rhsContracting := [1]
  lhsNonContracting := [0, 1, 2]
  rhsNonContracting := [0]
  lhsBatch := []
  rhsBatch := []
  wf := dot_S8x360x360x256_S128x256_S8x360x360x128_3_1_012_0_n_n_wf
def dot_S8x360x360x128_S1x128_S8x360x360x1_3_1_012_0_n_n : DotDims S8x360x360x128 S1x128 S8x360x360x1 where
  lhsContracting := [3]
  rhsContracting := [1]
  lhsNonContracting := [0, 1, 2]
  rhsNonContracting := [0]
  lhsBatch := []
  rhsBatch := []
  wf := dot_S8x360x360x128_S1x128_S8x360x360x1_3_1_012_0_n_n_wf

class Facts : Prop extends Facts₀ where

variable [Facts]
-- ==== Proof.ProjPayload.lean ====
/-
  What the projection kernel stores at one grid point, element by element on the extended reals.

  At a grid point the body holds one graph's embeddings (`[1, 360, 128]`) and a `[128, 128]` weight matrix laid out
  `[input feature, output feature]`, narrows both to bf16 (the identity on the extended reals), multiplies them into a
  zero accumulator and stores the `[360, 128]` product as a `[1, 360, 128]` block. Entry `(0, n, d)` of what it stores
  is therefore  Σ_k x[0, n, k] · w[k, d]  — the same for both stores of the body, which differ only in the weights.
-/
import proofs.«170377_j28613072126235_1_alg».proof.Proof.Gen.KernelIdeal.Skeleton
import Idealize.ShloMosaic.Lib.ValueLayout
import Idealize.ShloMosaic.Lib.Pipeline.Value
import Idealize.ShloMosaic.PureOps.Ideal.Laws

noncomputable section

open scoped BigOperators

namespace Cert.KernelIdeal.ProjPayload

open Idealize.ShloMosaic Idealize.ShloMosaic.ValueIdx Cert.KernelIdeal Cert.KernelIdeal.Gen

/-! The product's operand indices, axis by axis: output `(n, d)` and contraction coordinate `k` read the left operand at
    `(n, k)` and the right operand at `(k, d)`. -/

theorem lhs_axis0 (i : S360x128.Idx) (q : dot_S360x128_S128x128_S360x128_1_0_0_1_n_n.contr.Idx) :
    (dot_S360x128_S128x128_S360x128_1_0_0_1_n_n.lhsIdx i q 0).val = (i 0).val := by
  unfold DotDims.lhsIdx
  rw [dif_neg (show ¬(0 : Fin S360x128.rank) ∈ dot_S360x128_S128x128_S360x128_1_0_0_1_n_n.lhsBatch by decide), dif_pos (show (0 : Fin S360x128.rank) ∈ dot_S360x128_S128x128_S360x128_1_0_0_1_n_n.lhsNonContracting by decide)]
  rfl
theorem lhs_axis1 (i : S360x128.Idx) (q : dot_S360x128_S128x128_S360x128_1_0_0_1_n_n.contr.Idx) :
    (dot_S360x128_S128x128_S360x128_1_0_0_1_n_n.lhsIdx i q 1).val = (q ⟨0, by decide⟩).val :=
  dot_S360x128_S128x128_S360x128_1_0_0_1_n_n.lhsIdx_val_of_single rfl i q
theorem rhs_axis0 (i : S360x128.Idx) (q : dot_S360x128_S128x128_S360x128_1_0_0_1_n_n.contr.Idx) :
    (dot_S360x128_S128x128_S360x128_1_0_0_1_n_n.rhsIdx i q 0).val = (q ⟨0, by decide⟩).val :=
  dot_S360x128_S128x128_S360x128_1_0_0_1_n_n.rhsIdx_val_of_single rfl i q
theorem rhs_axis1 (i : S360x128.Idx) (q : dot_S360x128_S128x128_S360x128_1_0_0_1_n_n.contr.Idx) :
    (dot_S360x128_S128x128_S360x128_1_0_0_1_n_n.rhsIdx i q 1).val = (i 1).val := by
  unfold DotDims.rhsIdx
  rw [dif_neg (show ¬(1 : Fin S128x128.rank) ∈ dot_S360x128_S128x128_S360x128_1_0_0_1_n_n.rhsBatch by decide), dif_pos (show (1 : Fin S128x128.rank) ∈ dot_S360x128_S128x128_S360x128_1_0_0_1_n_n.rhsNonContracting by decide)]
  rfl

/-- The block product into a zero accumulator, at `(n, d)`: the sum over the 128 contracted features. -/
theorem product_apply (l : FVec Ideal S360x128 .bf16) (r : FVec Ideal S128x128 .bf16) (n : Fin 360) (d : Fin 128) :
    matmul dot_S360x128_S128x128_S360x128_1_0_0_1_n_n none l r (constant S360x128 .f32 0x00000000#32) (ix2 n d)
      = ∑ k : Fin 128, l (ix2 n k) * r (ix2 k d) := by
  simp only [matmul]
  rw [Ideal.matmul_constant_zero_apply, ← Equiv.sum_comp (contrEquiv1 dot_S360x128_S128x128_S360x128_1_0_0_1_n_n 128 rfl rfl).symm]
  refine Finset.sum_congr rfl fun k _ => ?_
  have hk := contrEquiv1_symm_val dot_S360x128_S128x128_S360x128_1_0_0_1_n_n 128 rfl rfl k
  have el : dot_S360x128_S128x128_S360x128_1_0_0_1_n_n.lhsIdx (ix2 n d) ((contrEquiv1 dot_S360x128_S128x128_S360x128_1_0_0_1_n_n 128 rfl rfl).symm k) = ix2 n k := funext fun a => Fin.ext (by
    match a with
    | ⟨0, _⟩ => exact lhs_axis0 _ _
    | ⟨1, _⟩ => exact (lhs_axis1 _ _).trans hk)
  have er : dot_S360x128_S128x128_S360x128_1_0_0_1_n_n.rhsIdx (ix2 n d) ((contrEquiv1 dot_S360x128_S128x128_S360x128_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-- The narrowed embeddings block at `(n, k)` is the loaded block at `(0, n, k)`. -/
theorem lhs_apply (x0 : Vec Ideal S1x360x128 .f32) (n : Fin 360) (k : Fin 128) :
    k0_pay1 (F := Ideal) x0 (ix2 n k) = x0 (ix3 (0 : Fin 1) n k) := by
  unfold k0_pay1
  exact shapeCast_1ab_ab_apply _ _ n k

/-- The first store's tile (sender-side weights) at `(0, n, d)`. -/
theorem pay2_apply (x0 : Vec Ideal S1x360x128 .f32) (x1 : Vec Ideal S128x128 .f32) (n : Fin 360) (d : Fin 128) :
    k0_pay2 (F := Ideal) x0 x1 (ix3 (0 : Fin 1) n d) = ∑ k : Fin 128, x0 (ix3 (0 : Fin 1) n k) * x1 (ix2 k d) := by
  unfold k0_pay2
  refine (shapeCast_ab_1ab_apply _ _ (0 : Fin 1) n d).trans ?_
  refine (product_apply _ _ n d).trans (Finset.sum_congr rfl fun k _ => ?_)
  refine congrArg₂ (· * ·) (lhs_apply x0 n k) ?_
  show shapeCast S128x128 x1 shapeCasts_S128x128_S128x128 (ix2 k d) = x1 (ix2 k d)
  rw [shapeCast_self]

/-- The second store's tile (receiver-side weights) at `(0, n, d)`. -/
theorem pay3_apply (x0 : Vec Ideal S1x360x128 .f32) (x2 : Vec Ideal S128x128 .f32) (n : Fin 360) (d : Fin 128) :
    k0_pay3 (F := Ideal) x0 x2 (ix3 (0 : Fin 1) n d) = ∑ k : Fin 128, x0 (ix3 (0 : Fin 1) n k) * x2 (ix2 k d) := by
  unfold k0_pay3
  refine (shapeCast_ab_1ab_apply _ _ (0 : Fin 1) n d).trans ?_
  refine (product_apply _ _ n d).trans (Finset.sum_congr rfl fun k _ => ?_)
  refine congrArg₂ (· * ·) (lhs_apply x0 n k) ?_
  show shapeCast S128x128 x2 shapeCasts_S128x128_S128x128 (ix2 k d) = x2 (ix2 k d)
  rw [shapeCast_self]

end Cert.KernelIdeal.ProjPayload

end
-- ==== Proof.Spec.lean ====
/-
  What both programs compute, as one function of the five argument arrays, index by index on the extended reals.

  Inputs: node embeddings `e[b, n, f]` (8 graphs, 360 nodes, 128 features), a weight matrix `W[d, g]` with 256 = 128 + 128
  input features `g` (the first half meets the SENDER node's embedding, the second half the RECEIVER's), a bias `c[d]`, a
  second weight row `v[0, d]` and a scalar bias `s[0]`. For the ordered pair (receiver `p`, sender `q`) of graph `b`:

      hidden[d] = max( Σ_k e[b,p,k]·W[d,128+k]  +  Σ_k e[b,q,k]·W[d,k]  +  c[d] , 0 )
      score     = max( Σ_d hidden[d]·v[0,d] + s[0] , 0 )

  The kernel computes the two inner sums once per node (two 128-wide projections) and adds them per pair; the reference
  contracts the 256-wide concatenation [sender ‖ receiver] against `W` per pair. The two agree because a sum over
  `Fin 256` is the sum over its first 128 indices plus the sum over its last 128, and addition on the extended reals
  is commutative: no finiteness of the inputs is used. The floor `0` is kept as the f32 word both programs write.
-/
import Idealize.ShloMosaic.PureOps.Ideal
import Idealize.ShloMosaic.Lib.ValueIdx

noncomputable section

open scoped BigOperators

namespace Cert.EdgeSpec

open Idealize.ShloMosaic Idealize.ShloMosaic.ValueIdx

/-- The floor of both rectifiers: the f32 word `0x00000000`, read on the extended reals. -/
abbrev floor0 : EReal := Ideal.ofBits .f32 0x00000000#32

/-- A 128-wide linear projection of node `(b, n)`'s embedding: feature `d` of `e[b, n, ·] · w[·, d]`, the weights laid
    out `[input feature, output feature]`. -/
def projAt (e : FVec Ideal ⟨3, ![8, 360, 128]⟩ .f32) (w : FVec Ideal ⟨2, ![128, 128]⟩ .f32)
    (b : Fin 8) (n : Fin 360) (d : Fin 128) : EReal :=
  ∑ k : Fin 128, e (ix3 b n k) * w (ix2 k d)

/-- The projection as a whole array `[8, 360, 128]`. -/
def proj (e : FVec Ideal ⟨3, ![8, 360, 128]⟩ .f32) (w : FVec Ideal ⟨2, ![128, 128]⟩ .f32) :
    FVec Ideal ⟨3, ![8, 360, 128]⟩ .f32 :=
  fun i => projAt e w ⟨(i 0).val, (i 0).isLt⟩ ⟨(i 1).val, (i 1).isLt⟩ ⟨(i 2).val, (i 2).isLt⟩

theorem proj_apply (e : FVec Ideal ⟨3, ![8, 360, 128]⟩ .f32) (w : FVec Ideal ⟨2, ![128, 128]⟩ .f32)
    (b : Fin 8) (n : Fin 360) (d : Fin 128) : proj e w (ix3 b n d) = projAt e w b n d := rfl

/-- The score of the pair (receiver `p`, sender `q`) of graph `b` from the two projected arrays `rp` (receiver side),
    `sp` (sender side), the bias row `c`, the weight row `v` and the scalar bias `s`. -/
def scoreAt (sp rp : FVec Ideal ⟨3, ![8, 360, 128]⟩ .f32) (c v : FVec Ideal ⟨2, ![1, 128]⟩ .f32)
    (s : FVec Ideal ⟨2, ![1, 1]⟩ .f32) (b : Fin 8) (p q : Fin 360) : EReal :=
  max ((∑ d : Fin 128, max ((rp (ix3 b p d) + sp (ix3 b q d)) + c (ix2 (0 : Fin 1) d)) floor0 * v (ix2 (0 : Fin 1) d))
    + s (ix2 (0 : Fin 1) (0 : Fin 1))) floor0

/-- The scores as a whole array `[8, 360, 360]`. -/
def score (sp rp : FVec Ideal ⟨3, ![8, 360, 128]⟩ .f32) (c v : FVec Ideal ⟨2, ![1, 128]⟩ .f32)
    (s : FVec Ideal ⟨2, ![1, 1]⟩ .f32) : FVec Ideal ⟨3, ![8, 360, 360]⟩ .f32 :=
  fun i => scoreAt sp rp c v s ⟨(i 0).val, (i 0).isLt⟩ ⟨(i 1).val, (i 1).isLt⟩ ⟨(i 2).val, (i 2).isLt⟩

theorem score_apply (sp rp : FVec Ideal ⟨3, ![8, 360, 128]⟩ .f32) (c v : FVec Ideal ⟨2, ![1, 128]⟩ .f32)
    (s : FVec Ideal ⟨2, ![1, 1]⟩ .f32) (b : Fin 8) (p q : Fin 360) :
    score sp rp c v s (ix3 b p q) = scoreAt sp rp c v s b p q := rfl

/-- THE RESULT at graph `b`, receiver `p`, sender `q`, from the five argument arrays. -/
def edgeAt (e : FVec Ideal ⟨3, ![8, 360, 128]⟩ .f32) (W : FVec Ideal ⟨2, ![128, 256]⟩ .f32) (c : FVec Ideal ⟨1, ![128]⟩ .f32)
    (v : FVec Ideal ⟨2, ![1, 128]⟩ .f32) (s : FVec Ideal ⟨1, ![1]⟩ .f32) (b : Fin 8) (p q : Fin 360) : EReal :=
  max ((∑ d : Fin 128,
        max (((∑ k : Fin 128, e (ix3 b p k) * W (ix2 d (⟨128 + k.val, by omega⟩ : Fin 256)))
              + (∑ k : Fin 128, e (ix3 b q k) * W (ix2 d (⟨k.val, by omega⟩ : Fin 256))))
            + c (ix1 d)) floor0 * v (ix2 (0 : Fin 1) d))
    + s (ix1 (0 : Fin 1))) floor0

/-- THE RESULT as a whole array `[8, 360, 360, 1]`. -/
def edge (e : FVec Ideal ⟨3, ![8, 360, 128]⟩ .f32) (W : FVec Ideal ⟨2, ![128, 256]⟩ .f32) (c : FVec Ideal ⟨1, ![128]⟩ .f32)
    (v : FVec Ideal ⟨2, ![1, 128]⟩ .f32) (s : FVec Ideal ⟨1, ![1]⟩ .f32) : FVec Ideal ⟨4, ![8, 360, 360, 1]⟩ .f32 :=
  fun i => edgeAt e W c v s ⟨(i 0).val, (i 0).isLt⟩ ⟨(i 1).val, (i 1).isLt⟩ ⟨(i 2).val, (i 2).isLt⟩

theorem edge_apply (e : FVec Ideal ⟨3, ![8, 360, 128]⟩ .f32) (W : FVec Ideal ⟨2, ![128, 256]⟩ .f32) (c : FVec Ideal ⟨1, ![128]⟩ .f32)
    (v : FVec Ideal ⟨2, ![1, 128]⟩ .f32) (s : FVec Ideal ⟨1, ![1]⟩ .f32) (b : Fin 8) (p q : Fin 360) (u : Fin 1) :
    edge e W c v s (ix4 b p q u) = edgeAt e W c v s b p q := rfl

/-- A sum over 256 indices is the sum over the first 128 plus the sum over the last 128, in any commutative monoid:
    the one law between a 256-wide contraction and two 128-wide ones. -/
theorem sum_fin256_split {M : Type*} [AddCommMonoid M] (f : Fin 256 → M) :
    ∑ x : Fin 256, f x
      = (∑ k : Fin 128, f (⟨k.val, by omega⟩ : Fin 256)) + ∑ k : Fin 128, f (⟨128 + k.val, by omega⟩ : Fin 256) :=
  Fin.sum_univ_add (a := 128) (b := 128) f

end Cert.EdgeSpec

end
-- ==== Proof.ProjValue.lean ====
/-
  The projection region's two result arrays, as whole-array functions of the arrays the region finds.

  The grid has one point per graph. Point `t` fetches graph `t`'s embeddings (`[1, 360, 128]` of `[8, 360, 128]`) and the
  two whole `[128, 128]` weight matrices, and writes block `t` of each result array. Entry `(0, n, d)` of the block it
  writes is  Σ_k x[0, n, k] · w[k, d]  over the loaded blocks, which is  Σ_k e[t, n, k] · w[k, d]  over the arrays: the
  projection `EdgeSpec.proj` at `(t, n, d)`. The eight blocks tile each result array (graph `b` is written by point `b`),
  so each result array ends holding the projection of the embeddings by its weight matrix.
  Stated at any contents `V` of the buffers on entry to the region.
-/
import proofs.«170377_j28613072126235_1_alg».proof.Proof.Gen.KernelIdeal.Frame
import proofs.«170377_j28613072126235_1_alg».proof.Proof.ProjPayload
import proofs.«170377_j28613072126235_1_alg».proof.Proof.Spec
import Idealize.ShloMosaic.Lib.Pipeline.Value

set_option maxRecDepth 16384

noncomputable section

open scoped BigOperators

namespace Cert.KernelIdeal.ProjValue

open Idealize.ShloMosaic Idealize.ShloMosaic.TcCoe Idealize.SL.Sem Idealize.ShloMosaic.ValueIdx
open Idealize.ShloMosaic.Pipeline (Dat)
open Cert.KernelIdeal Cert.KernelIdeal.Gen Cert.EdgeSpec Cert.KernelIdeal.ProjPayload

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices, decided over the grid: point `t` takes graph `t` of the embeddings and of both results, and
    the whole of each weight matrix. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem lt8 (t : Fin cfg0.N) : t.val < 8 := Nat.lt_of_lt_of_eq t.isLt (show cfg0.N = 8 from N_0)

/-- The embeddings block at point `t` is graph `t` of the embeddings array. -/
theorem emb_block (c : Dev nD) (t : Fin cfg0.N) (u : Fin 1) (n : Fin 360) (k : Fin 128) :
    (iblk0 V c 0 t : Vec Ideal S1x360x128 .f32) (ix3 u n k)
      = (V c main_arg0 : S8x360x128.Idx → EReal) (ix3 (⟨t.val, lt8 t⟩ : Fin 8) n k) := by
  obtain ⟨e0, e1, e2, -⟩ := idx_facts t
  have hu := u.isLt
  unfold iblk0
  rw [View.read_apply]
  show V c main_arg0 _ = V c main_arg0 _
  congr 1
  funext a
  apply Fin.ext
  match a with
  | ⟨0, _⟩ => show win0_0.index t (0 : Fin 3) * 1 + 1 * u.val = t.val; omega
  | ⟨1, _⟩ => show win0_0.index t (1 : Fin 3) * 360 + 1 * n.val = n.val; omega
  | ⟨2, _⟩ => show win0_0.index t (2 : Fin 3) * 128 + 1 * k.val = k.val; omega

/-- The sender-side weights block at any point is the whole weights array. -/
theorem ws_block (c : Dev nD) (t : Fin cfg0.N) (k d : Fin 128) :
    (iblk0 V c 1 t : Vec Ideal S128x128 .f32) (ix2 k d) = (V c main_v1 : S128x128.Idx → EReal) (ix2 k d) := by
  obtain ⟨-, -, -, e0, e1, -⟩ := idx_facts t
  unfold iblk0
  rw [View.read_apply]
  show V c main_v1 _ = V c main_v1 _
  congr 1
  funext a
  apply Fin.ext
  match a with
  | ⟨0, _⟩ => show win0_1.index t (0 : Fin 2) * 128 + 1 * k.val = k.val; omega
  | ⟨1, _⟩ => show win0_1.index t (1 : Fin 2) * 128 + 1 * d.val = d.val; omega

/-- The receiver-side weights block at any point is the whole weights array. -/
theorem wr_block (c : Dev nD) (t : Fin cfg0.N) (k d : Fin 128) :
    (iblk0 V c 2 t : Vec Ideal S128x128 .f32) (ix2 k d) = (V c main_v3 : S128x128.Idx → EReal) (ix2 k d) := by
  obtain ⟨-, -, -, -, -, e0, e1, -⟩ := idx_facts t
  unfold iblk0
  rw [View.read_apply]
  show V c main_v3 _ = V c main_v3 _
  congr 1
  funext a
  apply Fin.ext
  match a with
  | ⟨0, _⟩ => show win0_2.index t (0 : Fin 2) * 128 + 1 * k.val = k.val; omega
  | ⟨1, _⟩ => show win0_2.index t (1 : Fin 2) * 128 + 1 * d.val = d.val; omega

/-- Where entry `(u, n, d)` of result block `t` sits in the sender-side result array: graph `t`, node `n`, feature `d`. -/
theorem place3 (t : Fin cfg0.N) (u : Fin 1) (n : Fin 360) (d : Fin 128) :
    ((cfg0.win 3).blk t).view.emb (ix3 u n d) = (ix3 (⟨t.val, lt8 t⟩ : Fin 8) n d : S8x360x128.Idx) := by
  obtain ⟨-, -, -, -, -, -, -, e0, e1, e2, -⟩ := idx_facts t
  have hu := u.isLt
  funext a
  apply Fin.ext
  match a with
  | ⟨0, _⟩ => show win0_3.index t (0 : Fin 3) * 1 + 1 * u.val = t.val; omega
  | ⟨1, _⟩ => show win0_3.index t (1 : Fin 3) * 360 + 1 * n.val = n.val; omega
  | ⟨2, _⟩ => show win0_3.index t (2 : Fin 3) * 128 + 1 * d.val = d.val; omega

/-- The same for the receiver-side result array. -/
theorem place4 (t : Fin cfg0.N) (u : Fin 1) (n : Fin 360) (d : Fin 128) :
    ((cfg0.win 4).blk t).view.emb (ix3 u n d) = (ix3 (⟨t.val, lt8 t⟩ : Fin 8) n d : S8x360x128.Idx) := by
  obtain ⟨-, -, -, -, -, -, -, -, -, -, e0, e1, e2⟩ := idx_facts t
  have hu := u.isLt
  funext a
  apply Fin.ext
  match a with
  | ⟨0, _⟩ => show win0_4.index t (0 : Fin 3) * 1 + 1 * u.val = t.val; omega
  | ⟨1, _⟩ => show win0_4.index t (1 : Fin 3) * 360 + 1 * n.val = n.val; omega
  | ⟨2, _⟩ => show win0_4.index t (2 : Fin 3) * 128 + 1 * d.val = d.val; omega

/-- WHAT POINT `t` WRITES BACK to the sender-side result is block `t` of the projection by the sender-side weights. -/
theorem flushed3_eq (c : Dev nD) (t : Fin cfg0.N) :
    (dat0 V c).flushed 3 t
      = ((cfg0.win 3).blk t).view.read (Elt Ideal) (proj (V c main_arg0) (V c main_v1)) := by
  show (cfg0.win 3).cut (grid0.coords t) ((dat0 V c).after 3 t) = _
  rw [after0_3]
  unfold out0_3
  rw [View.canon_unit_zero hz3]
  simp only [View.ld_unit_zero (S := S1x360x128) hz3, View.ld_unit_zero (S := S128x128) hz2]
  funext j
  obtain ⟨u, n, d, rfl⟩ : ∃ (u : Fin 1) (n : Fin 360) (d : Fin 128), j = ix3 u n d := ⟨j 0, j 1, j 2, eq_ix3 j⟩
  obtain rfl : u = 0 := Subsingleton.elim _ _
  show k0_pay2 (F := Ideal) (iblk0 V c 0 t) (iblk0 V c 1 t) (ix3 (0 : Fin 1) n d)
    = proj (V c main_arg0) (V c main_v1) (((cfg0.win 3).blk t).view.emb (ix3 (0 : Fin 1) n d))
  rw [place3 t (0 : Fin 1) n d, proj_apply]
  refine (pay2_apply (iblk0 V c 0 t) (iblk0 V c 1 t) n d).trans (Finset.sum_congr rfl fun k _ => ?_)
  exact congrArg₂ (· * ·) (emb_block V c t (0 : Fin 1) n k) (ws_block V c t k d)

/-- WHAT POINT `t` WRITES BACK to the receiver-side result is block `t` of the projection by the receiver-side weights. -/
theorem flushed4_eq (c : Dev nD) (t : Fin cfg0.N) :
    (dat0 V c).flushed 4 t
      = ((cfg0.win 4).blk t).view.read (Elt Ideal) (proj (V c main_arg0) (V c main_v3)) := by
  show (cfg0.win 4).cut (grid0.coords t) ((dat0 V c).after 4 t) = _
  rw [after0_4]
  unfold out0_4
  rw [View.canon_unit_zero hz3]
  simp only [View.ld_unit_zero (S := S1x360x128) hz3, View.ld_unit_zero (S := S128x128) hz2]
  funext j
  obtain ⟨u, n, d, rfl⟩ : ∃ (u : Fin 1) (n : Fin 360) (d : Fin 128), j = ix3 u n d := ⟨j 0, j 1, j 2, eq_ix3 j⟩
  obtain rfl : u = 0 := Subsingleton.elim _ _
  show k0_pay3 (F := Ideal) (iblk0 V c 0 t) (iblk0 V c 2 t) (ix3 (0 : Fin 1) n d)
    = proj (V c main_arg0) (V c main_v3) (((cfg0.win 4).blk t).view.emb (ix3 (0 : Fin 1) n d))
  rw [place4 t (0 : Fin 1) n d, proj_apply]
  refine (pay3_apply (iblk0 V c 0 t) (iblk0 V c 2 t) n d).trans (Finset.sum_congr rfl fun k _ => ?_)
  exact congrArg₂ (· * ·) (emb_block V c t (0 : Fin 1) n k) (wr_block V c t k d)

/-- An index of a result array is in point `t`'s block iff each coordinate is in the block's range on its axis. -/
theorem mem_blk3 (t : Fin cfg0.N) (i : S8x360x128.Idx) :
    i ∈ ((cfg0.win 3).blk t).view.set ↔ ∀ a : Fin 3, win0_3.index t a * S1x360x128.size a ≤ (i a).val ∧ (i a).val < win0_3.index t a * S1x360x128.size a + S1x360x128.size a := by
  show i ∈ ((View.whole main_v6_0).slice (win0_3.rect t)).set ↔ _
  rw [View.set_slice_whole, Rect.mem_set_unit]
  exact Iff.rfl
theorem mem_blk4 (t : Fin cfg0.N) (i : S8x360x128.Idx) :
    i ∈ ((cfg0.win 4).blk t).view.set ↔ ∀ a : Fin 3, win0_4.index t a * S1x360x128.size a ≤ (i a).val ∧ (i a).val < win0_4.index t a * S1x360x128.size a + S1x360x128.size a := by
  show i ∈ ((View.whole main_v6_1).slice (win0_4.rect t)).set ↔ _
  rw [View.set_slice_whole, Rect.mem_set_unit]
  exact Iff.rfl

/-- Graph `b` of a result array is written by point `b`: the blocks cover the array. -/
theorem cover3 (i : S8x360x128.Idx) : ∃ t : Fin cfg0.N, (cfg0.win 3).flush t = true ∧ i ∈ ((cfg0.win 3).blk t).view.set := by
  have hi0 : (i 0).val < 8 := (i 0).isLt
  have hi1 : (i 1).val < 360 := (i 1).isLt
  have hi2 : (i 2).val < 128 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 360 ≤ (i 1).val ∧ (i 1).val < win0_3.index t (1 : Fin 3) * 360 + 360; omega
  | ⟨2, _⟩ => show win0_3.index t (2 : Fin 3) * 128 ≤ (i 2).val ∧ (i 2).val < win0_3.index t (2 : Fin 3) * 128 + 128; omega
theorem cover4 (i : S8x360x128.Idx) : ∃ t : Fin cfg0.N, (cfg0.win 4).flush t = true ∧ i ∈ ((cfg0.win 4).blk t).view.set := by
  have hi0 : (i 0).val < 8 := (i 0).isLt
  have hi1 : (i 1).val < 360 := (i 1).isLt
  have hi2 : (i 2).val < 128 := (i 2).isLt
  obtain ⟨t, ht⟩ : ∃ t : Fin cfg0.N, t.val = (i 0).val := ⟨⟨(i 0).val, by rw [show cfg0.N = 8 from N_0]; exact hi0⟩, rfl⟩
  obtain ⟨-, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 360 ≤ (i 1).val ∧ (i 1).val < win0_4.index t (1 : Fin 3) * 360 + 360; omega
  | ⟨2, _⟩ => show win0_4.index t (2 : Fin 3) * 128 ≤ (i 2).val ∧ (i 2).val < win0_4.index t (2 : Fin 3) * 128 + 128; omega

/-- THE SENDER-SIDE RESULT after the region: the embeddings projected by the sender-side weights. -/
theorem final3 (c : Dev nD) : (dat0 V c).arrAt 3 cfg0.N = proj (V c main_arg0) (V c main_v1) :=
  (dat0 V c).arrAt_eq_of_cover 3 (proj (V c main_arg0) (V c main_v1)) (fun t _ => flushed3_eq V c t) cover3

/-- THE RECEIVER-SIDE RESULT after the region: the embeddings projected by the receiver-side weights. -/
theorem final4 (c : Dev nD) : (dat0 V c).arrAt 4 cfg0.N = proj (V c main_arg0) (V c main_v3) :=
  (dat0 V c).arrAt_eq_of_cover 4 (proj (V c main_arg0) (V c main_v3)) (fun t _ => flushed4_eq V c t) cover4

end Cert.KernelIdeal.ProjValue

end
-- ==== Proof.LibRank3.lean ====
/-
  Rank-three tiles read at an index given by coordinates, and a lane sum of such a tile read as a finite sum.

  A kernel that combines a row-indexed matrix `[a, c]` and a column-indexed matrix `[b, c]` into one `[a, b, c]` tile
  (an outer sum or product over the first two axes, elementwise in the last) does so by re-laying each operand with a
  unit axis and broadcasting it: `[a, c] → [a, 1, c] → [a, b, c]`, `[b, c] → [1, b, c] → [a, b, c]`, and a single row
  `[1, c] → [1, 1, c] → [a, b, c]`. Each lemma states what the re-laid value holds at `(p, q, k)` in terms of the operand,
  for indices built by `ix2` / `ix3`, so that it applies to a printed operation by unification. The last lemma reads the
  sum over the last axis of such a tile, on the extended reals, as the finite sum of its `c` entries at `(p, q)`.
  Generic in the extents and in the element type.
-/
import Idealize.ShloMosaic.Lib.ValueLayout
import Idealize.ShloMosaic.Lib.Pipeline.Value
import Idealize.ShloMosaic.PureOps.Ideal.Laws

open scoped BigOperators

namespace Cert.Lib.Rank3

open Idealize.ShloMosaic Idealize.ShloMosaic.ValueIdx

variable {α : Type}

/-- An `[a, c]` matrix cast to `[a, 1, c]` reads, at `(i, u, k)`, the matrix at `(i, k)`, whatever the unit coordinate
    `u`: both positions are `i * c + k` in row-major order. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(p, q, k)`, the operand at `(p, 0, k)`: the middle axis is
    filled with copies. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`: the leading axis is
    filled with copies. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` row broadcast to `[a, b, c]` reads, at `(p, q, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The sum over the last axis of an `[a, b, c]` tile (a float `multi_reduction <add>` over axis 2 from the neutral
    accumulator), read on the extended reals at `(p, q)`, is the finite sum of the `c` entries `(p, q, ·)`. -/
theorem laneSum_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (funext fun d => Fin.ext (by
      match d with
      | ⟨0, _⟩ => rfl
      | ⟨1, _⟩ => rfl
      | ⟨2, _⟩ => rfl)))

end Cert.Lib.Rank3
-- ==== Proof.EdgePayload.lean ====
/-
  What the pairwise scoring kernel stores at one grid point, element by element on the extended reals.

  At a grid point the body holds the whole sender-side projection of one graph (`[1, 360, 128]`), 40 rows of the
  receiver-side projection (`[1, 40, 128]`), the bias row, the weight row (`[1, 128]` each) and the scalar bias
  (`[1, 1]`). It builds the `[40, 360, 128]` tile  receiver[p, d] + sender[q, d] + bias[d],  rectifies it, weighs it by
  the row, sums over the 128 lanes, adds the scalar and rectifies again. Entry `(0, p, q)` of what it stores is therefore
      max( Σ_d max( (r[0,p,d] + x[0,q,d]) + c[0,d] , 0 ) · v[0,d]  +  s[0,0] , 0 ).
-/
import proofs.«170377_j28613072126235_1_alg».proof.Proof.Gen.KernelIdeal.Skeleton
import proofs.«170377_j28613072126235_1_alg».proof.Proof.LibRank3
import proofs.«170377_j28613072126235_1_alg».proof.Proof.Spec

noncomputable section

open scoped BigOperators

namespace Cert.KernelIdeal.EdgePayload

open Idealize.ShloMosaic Idealize.ShloMosaic.ValueIdx Cert.KernelIdeal Cert.KernelIdeal.Gen Cert.Lib.Rank3 Cert.EdgeSpec

/-- The stored tile at `(0, p, q)`: the rectified weighted lane sum of the rectified outer sum of the loaded blocks. -/
theorem pay_apply (x0 : Vec Ideal S1x360x128 .f32) (x1 : Vec Ideal S1x40x128 .f32) (x2 x3 : Vec Ideal S1x128 .f32)
    (x4 : Vec Ideal S1x1 .f32) (p : Fin 40) (q : Fin 360) :
    k1_pay1 (F := Ideal) x0 x1 x2 x3 x4 (ix3 (0 : Fin 1) p q)
      = max ((∑ d : Fin 128, max ((x1 (ix3 (0 : Fin 1) p d) + x0 (ix3 (0 : Fin 1) q d)) + x2 (ix2 (0 : Fin 1) d)) floor0
                * x3 (ix2 (0 : Fin 1) d))
          + x4 (ix2 (0 : Fin 1) (0 : Fin 1))) floor0 := by
  unfold k1_pay1
  refine (shapeCast_ab_1ab_apply _ _ (0 : Fin 1) p q).trans ?_
  refine congrArg₂ max (congrArg₂ (· + ·) ?_ ?_) rfl
  · refine (laneSum_apply _ _ _ _ _ p q).trans (Finset.sum_congr rfl fun d _ => ?_)
    refine congrArg₂ (· * ·) (congrArg₂ max (congrArg₂ (· + ·) (congrArg₂ (· + ·) ?_ ?_) ?_) rfl) ?_
    · exact (broadcastTo_a1c_abc_apply _ _ p q d).trans
        ((shapeCast_ac_a1c_apply _ _ p (0 : Fin 1) d).trans (shapeCast_1ab_ab_apply _ _ p d))
    · exact (broadcastTo_1bc_abc_apply _ _ p q d).trans
        ((shapeCast_ab_1ab_apply _ _ (0 : Fin 1) q d).trans (shapeCast_1ab_ab_apply _ _ q d))
    · exact (broadcastTo_11c_abc_apply _ _ p q d).trans
        ((shapeCast_ab_1ab_apply _ _ (0 : Fin 1) (0 : Fin 1) d).trans (congrFun (shapeCast_self x2 _) _))
    · exact (broadcastTo_11c_abc_apply _ _ p q d).trans (shapeCast_ab_1ab_apply _ _ (0 : Fin 1) (0 : Fin 1) d)
  · show extractAt ![0, 0] (shapeCast S1x1 x4 shapeCasts_S1x1_S1x1) inpos_S1x1_p0_0 = _
    rw [shapeCast_self]
    exact congrArg x4 (funext fun a => Fin.ext (by match a with | ⟨0, _⟩ => rfl | ⟨1, _⟩ => rfl))

end Cert.KernelIdeal.EdgePayload

end
-- ==== Proof.EdgeValue.lean ====
/-
  The scoring region's result array, as one whole-array function of the arrays the region finds.

  The grid is 8 graphs by 9 tiles of 40 receiver rows. Point `t` = (graph `t / 9`, tile `t % 9`) fetches the whole
  sender-side projection of its graph (`[1, 360, 128]`), rows `40·(t % 9) … 40·(t % 9) + 39` of the receiver-side
  projection (`[1, 40, 128]`), the bias row, the weight row and the scalar bias (whole), and writes the `[1, 40, 360]`
  block (graph, tile, all senders) of the result. Entry `(0, p, q)` of that block is the score of the pair (receiver
  `40·(t % 9) + p`, sender `q`) of graph `t / 9`: `EdgeSpec.score` at that place. The 72 blocks tile the result array
  (entry `(b, i, j)` is written by point `9·b + i / 40`), so the array ends holding `EdgeSpec.score` of the five arrays.
  Stated at any contents `V` of the buffers on entry to the region.
-/
import proofs.«170377_j28613072126235_1_alg».proof.Proof.Gen.KernelIdeal.Frame
import proofs.«170377_j28613072126235_1_alg».proof.Proof.EdgePayload
import proofs.«170377_j28613072126235_1_alg».proof.Proof.Spec
import Idealize.ShloMosaic.Lib.Pipeline.Value

set_option maxRecDepth 16384

noncomputable section

open scoped BigOperators

namespace Cert.KernelIdeal.EdgeValue

open Idealize.ShloMosaic Idealize.ShloMosaic.TcCoe Idealize.SL.Sem Idealize.ShloMosaic.ValueIdx
open Idealize.ShloMosaic.Pipeline (Dat)
open Cert.KernelIdeal Cert.KernelIdeal.Gen Cert.EdgeSpec Cert.KernelIdeal.EdgePayload

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices, decided over the grid: point `t` is (graph `t / 9`, tile `t % 9`). -/
theorem idx_facts : ∀ t : Fin cfg1.N,
    win1_0.index t (0 : Fin 3) = t.val / 9 ∧ win1_0.index t (1 : Fin 3) = 0 ∧ win1_0.index t (2 : Fin 3) = 0
    ∧ win1_1.index t (0 : Fin 3) = t.val / 9 ∧ win1_1.index t (1 : Fin 3) = t.val % 9 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 9 ∧ win1_5.index t (1 : Fin 3) = t.val % 9 ∧ win1_5.index t (2 : Fin 3) = 0 :=
  (by decide +kernel : ∀ t : Fin grid1.N, _)

theorem lt72 (t : Fin cfg1.N) : t.val < 72 := Nat.lt_of_lt_of_eq t.isLt (show cfg1.N = 72 from N_1)
theorem graph_lt (t : Fin cfg1.N) : t.val / 9 < 8 := by have := lt72 t; omega
theorem row_lt (t : Fin cfg1.N) (p : Fin 40) : t.val % 9 * 40 + p.val < 360 := by have := p.isLt; omega

/-- The sender-side block at point `t` is graph `t / 9` of the sender-side projection. -/
theorem sender_block (c : Dev nD) (t : Fin cfg1.N) (u : Fin 1) (q : Fin 360) (d : Fin 128) :
    (iblk1 V c 0 t : Vec Ideal S1x360x128 .f32) (ix3 u q d)
      = (V c main_v6_0 : S8x360x128.Idx → EReal) (ix3 (⟨t.val / 9, graph_lt t⟩ : Fin 8) q d) := by
  obtain ⟨e0, e1, e2, -⟩ := idx_facts t
  have hu := u.isLt
  unfold iblk1
  rw [View.read_apply]
  show V c main_v6_0 _ = V c main_v6_0 _
  congr 1
  funext a
  apply Fin.ext
  match a with
  | ⟨0, _⟩ => show win1_0.index t (0 : Fin 3) * 1 + 1 * u.val = t.val / 9; omega
  | ⟨1, _⟩ => show win1_0.index t (1 : Fin 3) * 360 + 1 * q.val = q.val; omega
  | ⟨2, _⟩ => show win1_0.index t (2 : Fin 3) * 128 + 1 * d.val = d.val; omega

/-- The receiver-side block at point `t` is rows `40·(t % 9) + p` of graph `t / 9` of the receiver-side projection. -/
theorem receiver_block (c : Dev nD) (t : Fin cfg1.N) (u : Fin 1) (p : Fin 40) (d : Fin 128) :
    (iblk1 V c 1 t : Vec Ideal S1x40x128 .f32) (ix3 u p d)
      = (V c main_v6_1 : S8x360x128.Idx → EReal)
          (ix3 (⟨t.val / 9, graph_lt t⟩ : Fin 8) (⟨t.val % 9 * 40 + p.val, row_lt t p⟩ : Fin 360) d) := by
  obtain ⟨-, -, -, e0, e1, e2, -⟩ := idx_facts t
  have hu := u.isLt
  unfold iblk1
  rw [View.read_apply]
  show V c main_v6_1 _ = V c main_v6_1 _
  congr 1
  funext a
  apply Fin.ext
  match a with
  | ⟨0, _⟩ => show win1_1.index t (0 : Fin 3) * 1 + 1 * u.val = t.val / 9; omega
  | ⟨1, _⟩ => show win1_1.index t (1 : Fin 3) * 40 + 1 * p.val = t.val % 9 * 40 + p.val; omega
  | ⟨2, _⟩ => show win1_1.index t (2 : Fin 3) * 128 + 1 * d.val = d.val; omega

/-- The bias row's block at any point is the whole row. -/
theorem bias_block (c : Dev nD) (t : Fin cfg1.N) (u : Fin 1) (d : Fin 128) :
    (iblk1 V c 2 t : Vec Ideal S1x128 .f32) (ix2 u d) = (V c main_v4 : S1x128.Idx → EReal) (ix2 u d) := by
  obtain ⟨-, -, -, -, -, -, e0, e1, -⟩ := idx_facts t
  have hu := u.isLt
  unfold iblk1
  rw [View.read_apply]
  show V c main_v4 _ = V c main_v4 _
  congr 1
  funext a
  apply Fin.ext
  match a with
  | ⟨0, _⟩ => show win1_2.index t (0 : Fin 2) * 1 + 1 * u.val = u.val; omega
  | ⟨1, _⟩ => show win1_2.index t (1 : Fin 2) * 128 + 1 * d.val = d.val; omega

/-- The weight row's block at any point is the whole row. -/
theorem weight_block (c : Dev nD) (t : Fin cfg1.N) (u : Fin 1) (d : Fin 128) :
    (iblk1 V c 3 t : Vec Ideal S1x128 .f32) (ix2 u d) = (V c main_arg3 : S1x128.Idx → EReal) (ix2 u d) := by
  obtain ⟨-, -, -, -, -, -, -, -, e0, e1, -⟩ := idx_facts t
  have hu := u.isLt
  unfold iblk1
  rw [View.read_apply]
  show V c main_arg3 _ = V c main_arg3 _
  congr 1
  funext a
  apply Fin.ext
  match a with
  | ⟨0, _⟩ => show win1_3.index t (0 : Fin 2) * 1 + 1 * u.val = u.val; omega
  | ⟨1, _⟩ => show win1_3.index t (1 : Fin 2) * 128 + 1 * d.val = d.val; omega

/-- The scalar bias's block at any point is the whole `[1, 1]` array. -/
theorem scalar_block (c : Dev nD) (t : Fin cfg1.N) (u u' : Fin 1) :
    (iblk1 V c 4 t : Vec Ideal S1x1 .f32) (ix2 u u') = (V c main_v5 : S1x1.Idx → EReal) (ix2 u u') := by
  obtain ⟨-, -, -, -, -, -, -, -, -, -, e0, e1, -⟩ := idx_facts t
  have hu := u.isLt
  have hu' := u'.isLt
  unfold iblk1
  rw [View.read_apply]
  show V c main_v5 _ = V c main_v5 _
  congr 1
  funext a
  apply Fin.ext
  match a with
  | ⟨0, _⟩ => show win1_4.index t (0 : Fin 2) * 1 + 1 * u.val = u.val; omega
  | ⟨1, _⟩ => show win1_4.index t (1 : Fin 2) * 1 + 1 * u'.val = u'.val; omega

/-- Where entry `(u, p, q)` of result block `t` sits in the result array: graph `t / 9`, receiver `40·(t % 9) + p`,
    sender `q`. -/
theorem place5 (t : Fin cfg1.N) (u : Fin 1) (p : Fin 40) (q : Fin 360) :
    ((cfg1.win 5).blk t).view.emb (ix3 u p q)
      = (ix3 (⟨t.val / 9, graph_lt t⟩ : Fin 8) (⟨t.val % 9 * 40 + p.val, row_lt t p⟩ : Fin 360) q : S8x360x360.Idx) := by
  obtain ⟨-, -, -, -, -, -, -, -, -, -, -, -, e0, e1, e2⟩ := idx_facts t
  have hu := u.isLt
  funext a
  apply Fin.ext
  match a with
  | ⟨0, _⟩ => show win1_5.index t (0 : Fin 3) * 1 + 1 * u.val = t.val / 9; omega
  | ⟨1, _⟩ => show win1_5.index t (1 : Fin 3) * 40 + 1 * p.val = t.val % 9 * 40 + p.val; omega
  | ⟨2, _⟩ => show win1_5.index t (2 : Fin 3) * 360 + 1 * q.val = q.val; omega

/-- WHAT POINT `t` WRITES BACK is block `t` of the scores of the five arrays. -/
theorem flushed5_eq (c : Dev nD) (t : Fin cfg1.N) :
    (dat1 V c).flushed 5 t
      = ((cfg1.win 5).blk t).view.read (Elt Ideal)
          (score (V c main_v6_0) (V c main_v6_1) (V c main_v4) (V c main_arg3) (V c main_v5)) := by
  show (cfg1.win 5).cut (grid1.coords t) ((dat1 V c).after 5 t) = _
  rw [after1_5]
  unfold out1_5
  rw [View.canon_unit_zero hz3]
  simp only [View.ld_unit_zero (S := S1x360x128) hz3, View.ld_unit_zero (S := S1x40x128) hz3,
    View.ld_unit_zero (S := S1x128) hz2, View.ld_unit_zero (S := S1x1) hz2]
  funext j
  obtain ⟨u, p, q, rfl⟩ : ∃ (u : Fin 1) (p : Fin 40) (q : Fin 360), j = ix3 u p q := ⟨j 0, j 1, j 2, eq_ix3 j⟩
  obtain rfl : u = 0 := Subsingleton.elim _ _
  show k1_pay1 (F := Ideal) (iblk1 V c 0 t) (iblk1 V c 1 t) (iblk1 V c 2 t) (iblk1 V c 3 t) (iblk1 V c 4 t) (ix3 (0 : Fin 1) p q)
    = score (V c main_v6_0) (V c main_v6_1) (V c main_v4) (V c main_arg3) (V c main_v5)
        (((cfg1.win 5).blk t).view.emb (ix3 (0 : Fin 1) p q))
  rw [place5 t (0 : Fin 1) p q, score_apply]
  refine (pay_apply (iblk1 V c 0 t) (iblk1 V c 1 t) (iblk1 V c 2 t) (iblk1 V c 3 t) (iblk1 V c 4 t) p q).trans ?_
  unfold scoreAt
  refine congrArg₂ max (congrArg₂ (· + ·) (Finset.sum_congr rfl fun d _ => ?_) (scalar_block V c t (0 : Fin 1) (0 : Fin 1))) rfl
  exact congrArg₂ (· * ·)
    (congrArg₂ max
      (congrArg₂ (· + ·)
        (congrArg₂ (· + ·) (receiver_block V c t (0 : Fin 1) p d) (sender_block V c t (0 : Fin 1) q d))
        (bias_block V c t (0 : Fin 1) d))
      rfl)
    (weight_block V c t (0 : Fin 1) d)

/-- An index of the result array is in point `t`'s block iff each coordinate is in the block's range on its axis. -/
theorem mem_blk5 (t : Fin cfg1.N) (i : S8x360x360.Idx) :
    i ∈ ((cfg1.win 5).blk t).view.set ↔ ∀ a : Fin 3, win1_5.index t a * S1x40x360.size a ≤ (i a).val ∧ (i a).val < win1_5.index t a * S1x40x360.size a + S1x40x360.size a := by
  show i ∈ ((View.whole main_v7).slice (win1_5.rect t)).set ↔ _
  rw [View.set_slice_whole, Rect.mem_set_unit]
  exact Iff.rfl

/-- Entry `(b, i, j)` of the result array is written by point `9·b + i / 40`: the blocks cover the array. -/
theorem cover5 (i : S8x360x360.Idx) : ∃ t : Fin cfg1.N, (cfg1.win 5).flush t = true ∧ i ∈ ((cfg1.win 5).blk t).view.set := by
  have hi0 : (i 0).val < 8 := (i 0).isLt
  have hi1 : (i 1).val < 360 := (i 1).isLt
  have hi2 : (i 2).val < 360 := (i 2).isLt
  obtain ⟨t, ht⟩ : ∃ t : Fin cfg1.N, t.val = (i 0).val * 9 + (i 1).val / 40 :=
    ⟨⟨(i 0).val * 9 + (i 1).val / 40, by rw [show cfg1.N = 72 from N_1]; omega⟩, rfl⟩
  obtain ⟨-, -, -, -, -, -, -, -, -, -, -, -, e0, e1, e2⟩ := idx_facts t
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 40 ≤ (i 1).val ∧ (i 1).val < win1_5.index t (1 : Fin 3) * 40 + 40; omega
  | ⟨2, _⟩ => show win1_5.index t (2 : Fin 3) * 360 ≤ (i 2).val ∧ (i 2).val < win1_5.index t (2 : Fin 3) * 360 + 360; omega

/-- THE RESULT ARRAY after the region: the scores of the five arrays the region found. -/
theorem final5 (c : Dev nD) :
    (dat1 V c).arrAt 5 cfg1.N = score (V c main_v6_0) (V c main_v6_1) (V c main_v4) (V c main_arg3) (V c main_v5) :=
  (dat1 V c).arrAt_eq_of_cover 5 (score (V c main_v6_0) (V c main_v6_1) (V c main_v4) (V c main_arg3) (V c main_v5))
    (fun t _ => flushed5_eq V c t) cover5

end Cert.KernelIdeal.EdgeValue

end
-- ==== Proof.HostValue.lean ====
/-
  What the host operations around the two regions compute, read at an index on any float values.

  Before the regions the program cuts the `[128, 256]` weight matrix `W` into its two `[128, 128]` halves and transposes
  each, so that entry `(k, d)` of the first is `W[d, k]` and of the second `W[d, 128 + k]`; it re-lays the bias vector
  as a `[1, 128]` row and the scalar bias as a `[1, 1]` array. After the regions it re-lays the `[8, 360, 360]` scores as
  `[8, 360, 360, 1]`. Each is stated for ANY contents `X` of the buffers the stretch starts from.
-/
import proofs.«170377_j28613072126235_1_alg».proof.Proof.Gen.KernelIdeal.Launch
import Idealize.ShloMosaic.Lib.StableHlo.Run
import Idealize.ShloMosaic.Lib.ValueLayout
import Idealize.ShloMosaic.Lib.Pipeline.Value

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- The sender-side weights: the first 128 input features of `W`, transposed. -/
theorem ws_eq (X : Valuation τ sig (Elt F)) :
    StableHlo.after (hostOps0 (F := F)) X (Proc.devRef .tc main_v1)
      = transpose S128x128 [1, 0] (extractStridedSlice S128x128 ![0, 0] (X (Proc.devRef .tc main_arg1)) slices_S128x256_S128x128_0_0) transposes_S128x128_S128x128_1_0 := by
  after_results

/-- The receiver-side weights: the last 128 input features of `W`, transposed. -/
theorem wr_eq (X : Valuation τ sig (Elt F)) :
    StableHlo.after (hostOps0 (F := F)) X (Proc.devRef .tc main_v3)
      = transpose S128x128 [1, 0] (extractStridedSlice S128x128 ![0, 128] (X (Proc.devRef .tc main_arg1)) slices_S128x256_S128x128_0_128) transposes_S128x128_S128x128_1_0 := by
  after_results

/-- The bias as a row. -/
theorem bias_eq (X : Valuation τ sig (Elt F)) :
    StableHlo.after (hostOps0 (F := F)) X (Proc.devRef .tc main_v4)
      = shapeCast S1x128 (X (Proc.devRef .tc main_arg2)) shapeCasts_S128_S1x128 := by
  after_results; rfl

/-- The scalar bias as a `[1, 1]` array. -/
theorem scalar_eq (X : Valuation τ sig (Elt F)) :
    StableHlo.after (hostOps0 (F := F)) X (Proc.devRef .tc main_v5)
      = shapeCast S1x1 (X (Proc.devRef .tc main_arg4)) shapeCasts_S1_S1x1 := by
  after_results; rfl

/-- The embeddings and the weight row are not written by the first stretch. -/
theorem emb_kept (X : Valuation τ sig (Elt F)) :
    StableHlo.after (hostOps0 (F := F)) X (Proc.devRef .tc main_arg0) = X (Proc.devRef .tc main_arg0) := by
  after_results
theorem row_kept (X : Valuation τ sig (Elt F)) :
    StableHlo.after (hostOps0 (F := F)) X (Proc.devRef .tc main_arg3) = X (Proc.devRef .tc main_arg3) := by
  after_results

/-- The result: the scores with a trailing unit axis. -/
theorem result_eq (X : Valuation τ sig (Elt F)) :
    StableHlo.after (hostOps2 (F := F)) X (Proc.devRef .tc main_v8)
      = shapeCast S8x360x360x1 (X (Proc.devRef .tc main_v7)) shapeCasts_S8x360x360_S8x360x360x1 := by
  after_results; rfl

/-! ## The same, at an index -/

/-- Entry `(k, d)` of the sender-side weights is `W[d, k]`. -/
theorem ws_apply (w : Vec F S128x256 .f32) (k d : Fin 128) :
    transpose S128x128 [1, 0] (extractStridedSlice S128x128 ![0, 0] w slices_S128x256_S128x128_0_0) transposes_S128x128_S128x128_1_0 (ix2 k d)
      = w (ix2 d (⟨k.val, by omega⟩ : Fin 256)) :=
  (transpose_ix2_apply _ _ k d).trans (slice2_axis1_apply 0 w _ d k _ (by show k.val = 0 + k.val; omega))

/-- Entry `(k, d)` of the receiver-side weights is `W[d, 128 + k]`. -/
theorem wr_apply (w : Vec F S128x256 .f32) (k d : Fin 128) :
    transpose S128x128 [1, 0] (extractStridedSlice S128x128 ![0, 128] w slices_S128x256_S128x128_0_128) transposes_S128x128_S128x128_1_0 (ix2 k d)
      = w (ix2 d (⟨128 + k.val, by omega⟩ : Fin 256)) :=
  (transpose_ix2_apply _ _ k d).trans (slice2_axis1_apply 128 w _ d k _ rfl)

/-- Entry `(u, d)` of the bias row is `c[d]`. -/
theorem bias_apply (x : Vec F S128 .f32) (u : Fin 1) (d : Fin 128) :
    shapeCast S1x128 x shapeCasts_S128_S1x128 (ix2 u d) = x (ix1 d) :=
  shapeCast_a_1a_apply x _ u d

/-- The one entry of the `[1, 1]` scalar bias is `s[0]`. -/
theorem scalar_apply (x : Vec F S1 .f32) (u u' : Fin 1) :
    shapeCast S1x1 x shapeCasts_S1_S1x1 (ix2 u u') = x (ix1 u') :=
  shapeCast_a_1a_apply x _ u u'

/-- Entry `(b, p, q, u)` of the result is the score `(b, p, q)`. -/
theorem result_apply (x : Vec F S8x360x360 .f32) (b : Fin 8) (p q : Fin 360) (u : Fin 1) :
    shapeCast S8x360x360x1 x shapeCasts_S8x360x360_S8x360x360x1 (ix4 b p q u) = x (ix3 b p q) :=
  shapeCast_apply x _ _ _ (by
    have hu : u.val = 0 := by omega
    rw [Shape.rowMajor_val_three, Shape.rowMajor_val_four]
    show (b.val * 360 + p.val) * 360 + q.val = ((b.val * 360 + p.val) * 360 + q.val) * 1 + u.val
    omega)

end Cert.KernelIdeal.HostValue

end
-- ==== Proof.KernelValue.lean ====
/-
  The kernel program's result buffer holds the specification `EdgeSpec.edge` of the five argument arrays.

  The program's buffer contents are a fold through four stretches: host operations (the two transposed halves of `W`,
  the bias as a row, the scalar bias as a `[1, 1]` array), the projection region (the embeddings projected by each
  half), the scoring region (the pairwise scores of the two projections), and the closing reshape. Reading the result
  buffer back through the fold, stretch by stretch, gives at `(b, p, q, u)`

      max( Σ_d max( (Σ_k e[b,p,k]·W[d,128+k] + Σ_k e[b,q,k]·W[d,k]) + c[d] , 0 ) · v[0,d] + s[0] , 0 ),

  which is the specification. Each buffer is named once at its literal array type, so that its entries are extended
  reals to add and multiply.
-/
import proofs.«170377_j28613072126235_1_alg».proof.Proof.Gen.KernelIdeal.Frame
import proofs.«170377_j28613072126235_1_alg».proof.Proof.ProjValue
import proofs.«170377_j28613072126235_1_alg».proof.Proof.EdgeValue
import proofs.«170377_j28613072126235_1_alg».proof.Proof.HostValue
import proofs.«170377_j28613072126235_1_alg».proof.Proof.Spec

set_option maxRecDepth 16384

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen Cert.EdgeSpec

variable (m : (ℓ : Loc nD τ sig) → Buf (Elt Ideal) ℓ) (ρ : Dev nD → PrngReg)

/-! ## The arrays, each at its literal type -/

/-- The five arguments as launched: embeddings, weights, bias, weight row, scalar bias. -/
abbrev argE (c : Dev nD) : FVec Ideal S8x360x128 .f32 := m ((c : Thread nD τ).loc main_arg0)
abbrev argW (c : Dev nD) : FVec Ideal S128x256 .f32 := m ((c : Thread nD τ).loc main_arg1)
abbrev argC (c : Dev nD) : FVec Ideal S128 .f32 := m ((c : Thread nD τ).loc main_arg2)
abbrev argV (c : Dev nD) : FVec Ideal S1x128 .f32 := m ((c : Thread nD τ).loc main_arg3)
abbrev argS (c : Dev nD) : FVec Ideal S1 .f32 := m ((c : Thread nD τ).loc main_arg4)
/-- On entry to the projection region: embeddings, the two weight halves, the bias row, the weight row, the scalar. -/
abbrev emb1 (c : Dev nD) : FVec Ideal S8x360x128 .f32 := V1 m ρ c main_arg0
abbrev ws1 (c : Dev nD) : FVec Ideal S128x128 .f32 := V1 m ρ c main_v1
abbrev wr1 (c : Dev nD) : FVec Ideal S128x128 .f32 := V1 m ρ c main_v3
abbrev bias1 (c : Dev nD) : FVec Ideal S1x128 .f32 := V1 m ρ c main_v4
abbrev row1 (c : Dev nD) : FVec Ideal S1x128 .f32 := V1 m ρ c main_arg3
abbrev scal1 (c : Dev nD) : FVec Ideal S1x1 .f32 := V1 m ρ c main_v5
/-- On entry to the scoring region: the two projections, the bias row, the weight row, the scalar. -/
abbrev sp2 (c : Dev nD) : FVec Ideal S8x360x128 .f32 := V2 m ρ c main_v6_0
abbrev rp2 (c : Dev nD) : FVec Ideal S8x360x128 .f32 := V2 m ρ c main_v6_1
abbrev bias2 (c : Dev nD) : FVec Ideal S1x128 .f32 := V2 m ρ c main_v4
abbrev row2 (c : Dev nD) : FVec Ideal S1x128 .f32 := V2 m ρ c main_arg3
abbrev scal2 (c : Dev nD) : FVec Ideal S1x1 .f32 := V2 m ρ c main_v5
/-- After the scoring region: the scores. -/
abbrev scores3 (c : Dev nD) : FVec Ideal S8x360x360 .f32 := W3 m ρ c (Proc.devRef .tc main_v7)

/-! ## On entry to the projection region -/

/-- The embeddings are as launched. -/
theorem emb1_eq (c : Dev nD) : emb1 m ρ c = argE m c :=
  HostValue.emb_kept (F := Ideal) (W0 m ρ c)

/-- The weight row is as launched. -/
theorem row1_eq (c : Dev nD) : row1 m ρ c = argV m c :=
  HostValue.row_kept (F := Ideal) (W0 m ρ c)

/-- Entry `(k, d)` of the sender-side weights is `W[d, k]`. -/
theorem ws1_apply (c : Dev nD) (k d : Fin 128) :
    ws1 m ρ c (ix2 k d) = argW m c (ix2 d (⟨k.val, by omega⟩ : Fin 256)) :=
  (congrFun (HostValue.ws_eq (F := Ideal) (W0 m ρ c)) (ix2 k d)).trans (HostValue.ws_apply (F := Ideal) (argW m c) k d)

/-- Entry `(k, d)` of the receiver-side weights is `W[d, 128 + k]`. -/
theorem wr1_apply (c : Dev nD) (k d : Fin 128) :
    wr1 m ρ c (ix2 k d) = argW m c (ix2 d (⟨128 + k.val, by omega⟩ : Fin 256)) :=
  (congrFun (HostValue.wr_eq (F := Ideal) (W0 m ρ c)) (ix2 k d)).trans (HostValue.wr_apply (F := Ideal) (argW m c) k d)

/-- Entry `(u, d)` of the bias row is `c[d]`. -/
theorem bias1_apply (c : Dev nD) (u : Fin 1) (d : Fin 128) : bias1 m ρ c (ix2 u d) = argC m c (ix1 d) :=
  (congrFun (HostValue.bias_eq (F := Ideal) (W0 m ρ c)) (ix2 u d)).trans (HostValue.bias_apply (F := Ideal) (argC m c) u d)

/-- The one entry of the scalar bias array is `s[0]`. -/
theorem scal1_apply (c : Dev nD) (u u' : Fin 1) : scal1 m ρ c (ix2 u u') = argS m c (ix1 u') :=
  (congrFun (HostValue.scalar_eq (F := Ideal) (W0 m ρ c)) (ix2 u u')).trans (HostValue.scalar_apply (F := Ideal) (argS m c) u u')

/-! ## On entry to the scoring region -/

/-- The sender-side projection is the embeddings projected by the sender-side weights. -/
theorem sp2_eq (c : Dev nD) : sp2 m ρ c = proj (emb1 m ρ c) (ws1 m ρ c) :=
  (W2_arr m ρ c 3).trans (ProjValue.final3 (V1 m ρ) c)

/-- The receiver-side projection is the embeddings projected by the receiver-side weights. -/
theorem rp2_eq (c : Dev nD) : rp2 m ρ c = proj (emb1 m ρ c) (wr1 m ρ c) :=
  (W2_arr m ρ c 4).trans (ProjValue.final4 (V1 m ρ) c)

/-- The sender-side projection at `(b, q, d)`, over the arguments. -/
theorem sp2_apply (c : Dev nD) (b : Fin 8) (q : Fin 360) (d : Fin 128) :
    sp2 m ρ c (ix3 b q d) = ∑ k : Fin 128, argE m c (ix3 b q k) * argW m c (ix2 d (⟨k.val, by omega⟩ : Fin 256)) := by
  rw [sp2_eq, proj_apply]
  unfold projAt
  refine Finset.sum_congr rfl fun k _ => congrArg₂ (· * ·) ?_ ?_
  · exact congrFun (emb1_eq m ρ c) (ix3 b q k)
  · exact ws1_apply m ρ c k d

/-- The receiver-side projection at `(b, p, d)`, over the arguments. -/
theorem rp2_apply (c : Dev nD) (b : Fin 8) (p : Fin 360) (d : Fin 128) :
    rp2 m ρ c (ix3 b p d) = ∑ k : Fin 128, argE m c (ix3 b p k) * argW m c (ix2 d (⟨128 + k.val, by omega⟩ : Fin 256)) := by
  rw [rp2_eq, proj_apply]
  unfold projAt
  refine Finset.sum_congr rfl fun k _ => congrArg₂ (· * ·) ?_ ?_
  · exact congrFun (emb1_eq m ρ c) (ix3 b p k)
  · exact wr1_apply m ρ c k d

/-- The bias row, the weight row and the scalar bias pass the projection region untouched. -/
theorem bias2_apply (c : Dev nD) (u : Fin 1) (d : Fin 128) : bias2 m ρ c (ix2 u d) = argC m c (ix1 d) :=
  (congrFun (W2_of_ne m ρ c main_v4 (by decide)) (ix2 u d)).trans (bias1_apply m ρ c u d)
theorem row2_apply (c : Dev nD) (u : Fin 1) (d : Fin 128) : row2 m ρ c (ix2 u d) = argV m c (ix2 u d) :=
  (congrFun (W2_of_ne m ρ c main_arg3 (by decide)) (ix2 u d)).trans (congrFun (row1_eq m ρ c) (ix2 u d))
theorem scal2_apply (c : Dev nD) (u u' : Fin 1) : scal2 m ρ c (ix2 u u') = argS m c (ix1 u') :=
  (congrFun (W2_of_ne m ρ c main_v5 (by decide)) (ix2 u u')).trans (scal1_apply m ρ c u u')

/-! ## After the scoring region and the closing reshape -/

/-- The scores array is the scores of the five arrays the scoring region found. -/
theorem scores3_eq (c : Dev nD) :
    scores3 m ρ c = score (sp2 m ρ c) (rp2 m ρ c) (bias2 m ρ c) (row2 m ρ c) (scal2 m ρ c) :=
  (W3_arr m ρ c 5).trans (EdgeValue.final5 (V2 m ρ) c)

/-- The scores array at `(b, p, q)`, over the arguments: the specification there. -/
theorem scores3_apply (c : Dev nD) (b : Fin 8) (p q : Fin 360) :
    scores3 m ρ c (ix3 b p q) = edgeAt (argE m c) (argW m c) (argC m c) (argV m c) (argS m c) b p q := by
  rw [scores3_eq, score_apply]
  unfold scoreAt edgeAt
  refine congrArg₂ max (congrArg₂ (· + ·) (Finset.sum_congr rfl fun d _ => ?_) (scal2_apply m ρ c (0 : Fin 1) (0 : Fin 1))) rfl
  exact congrArg₂ (· * ·)
    (congrArg₂ max
      (congrArg₂ (· + ·)
        (congrArg₂ (· + ·) (rp2_apply m ρ c b p d) (sp2_apply m ρ c b q d))
        (bias2_apply m ρ c (0 : Fin 1) d))
      rfl)
    (row2_apply m ρ c (0 : Fin 1) d)

/-- THE RESULT BUFFER at the end of the program is the specification of the five arguments as launched. -/
theorem result_eq (c : Dev nD) :
    W4 m ρ c (Proc.devRef .tc main_v8) = edge (argE m c) (argW m c) (argC m c) (argV m c) (argS m c) := by
  funext i
  obtain ⟨b, p, q, u, rfl⟩ : ∃ (b : Fin 8) (p q : Fin 360) (u : Fin 1), i = ix4 b p q u := ⟨i 0, i 1, i 2, i 3, eq_ix4 i⟩
  refine (congrFun (HostValue.result_eq (F := Ideal) (W3 m ρ c)) (ix4 b p q u)).trans ?_
  refine (HostValue.result_apply (F := Ideal) (scores3 m ρ c) b p q u).trans ?_
  exact (scores3_apply m ρ c b p q).trans (edge_apply _ _ _ _ _ b p q u).symm

end Cert.KernelIdeal.KernelValue

end
-- ==== Proof.RefValue.lean ====
/-
  The reference's result is the specification `EdgeSpec.edge` of the five argument arrays.

  The reference forms, per ordered pair (receiver `p`, sender `q`) of graph `b`, the 256-wide feature vector
  [ e[b, q, ·] ‖ e[b, p, ·] ] (sender first), contracts it against `W[d, ·]`, adds the bias, rectifies, contracts the 128
  hidden features against the weight row, adds the scalar bias and rectifies. The 256-wide contraction splits at the
  seam of the concatenation into the sender's and the receiver's 128-wide contractions (`EdgeSpec.sum_fin256_split`);
  the specification lists the receiver's first, which is commutativity of addition. Everything else is the generated
  stage-by-stage reading of the reference at an index.
-/
import proofs.«170377_j28613072126235_1_alg».proof.Proof.Gen.ReferenceIdeal.Read
import proofs.«170377_j28613072126235_1_alg».proof.Proof.Spec
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Gen Cert.ReferenceIdeal.Read Cert.EdgeSpec

/-! ## The generated index maps at coordinates -/

theorem lidx10_eq (b : Fin 8) (p q : Fin 360) (u : Fin 1) (d : Fin 128) :
    lidx_main_v10 (ix4 b p q u) d = ix4 b p q d :=
  funext fun a => Fin.ext (by match a with | ⟨0, _⟩ => rfl | ⟨1, _⟩ => rfl | ⟨2, _⟩ => rfl | ⟨3, _⟩ => rfl)
theorem ridx10_eq (b : Fin 8) (p q : Fin 360) (u : Fin 1) (d : Fin 128) :
    ridx_main_v10 (ix4 b p q u) d = ix2 u d :=
  funext fun a => Fin.ext (by match a with | ⟨0, _⟩ => rfl | ⟨1, _⟩ => rfl)
theorem lidx5_eq (b : Fin 8) (p q : Fin 360) (d : Fin 128) (f : Fin 256) :
    lidx_main_v5 (ix4 b p q d) f = ix4 b p q f :=
  funext fun a => Fin.ext (by match a with | ⟨0, _⟩ => rfl | ⟨1, _⟩ => rfl | ⟨2, _⟩ => rfl | ⟨3, _⟩ => rfl)
theorem ridx5_eq (b : Fin 8) (p q : Fin 360) (d : Fin 128) (f : Fin 256) :
    ridx_main_v5 (ix4 b p q d) f = ix2 d f :=
  funext fun a => Fin.ext (by match a with | ⟨0, _⟩ => rfl | ⟨1, _⟩ => rfl)
theorem bias_idx_eq (b : Fin 8) (p q : Fin 360) (d : Fin 128) :
    idx_main_v6 (idx_main_v7 (ix4 b p q d)) = ix1 d :=
  funext fun a => Fin.ext (by match a with | ⟨0, _⟩ => rfl)
theorem scalar_idx_eq (b : Fin 8) (p q : Fin 360) (u : Fin 1) :
    idx_main_v11 (idx_main_v12 (ix4 b p q u)) = ix1 (0 : Fin 1) :=
  funext fun a => Fin.ext (by match a with | ⟨0, _⟩ => rfl)
theorem sender_idx_eq (b : Fin 8) (p q : Fin 360) (k : Fin 128) :
    idx_main_v0 (idx_main_v1 (ix4 b p q k)) = ix3 b q k :=
  funext fun a => Fin.ext (by match a with | ⟨0, _⟩ => rfl | ⟨1, _⟩ => rfl | ⟨2, _⟩ => rfl)
theorem receiver_idx_eq (b : Fin 8) (p q : Fin 360) (k : Fin 128) :
    idx_main_v2 (idx_main_v3 (ix4 b p q k)) = ix3 b p k :=
  funext fun a => Fin.ext (by match a with | ⟨0, _⟩ => rfl | ⟨1, _⟩ => rfl | ⟨2, _⟩ => rfl)

/-! ## The concatenated features -/

/-- Features `0 … 127` of the pair `(p, q)` are the SENDER `q`'s embedding. -/
theorem cat_sender (x0 : FVec Ideal S8x360x128 .f32) (b : Fin 8) (p q : Fin 360) (k : Fin 128) :
    val_main_v4 (F := Ideal) x0 (ix4 b p q (⟨k.val, by omega⟩ : Fin 256)) = x0 (ix3 b q k) := by
  unfold val_main_v4
  refine (concatenate_pair_apply_left (3 : Fin 4) (val_main_v1 (F := Ideal) x0) (val_main_v3 (F := Ideal) x0)
    concatenates_S8x360x360x128_S8x360x360x128_S8x360x360x256_d3 (ix4 b p q (⟨k.val, by omega⟩ : Fin 256)) rfl (ix4 b p q k)
    (fun ax => by match ax with | ⟨0, _⟩ => rfl | ⟨1, _⟩ => rfl | ⟨2, _⟩ => rfl | ⟨3, _⟩ => rfl)).trans ?_
  rw [val_main_v1_apply, val_main_v0_apply, sender_idx_eq]

/-- Features `128 … 255` of the pair `(p, q)` are the RECEIVER `p`'s embedding. -/
theorem cat_receiver (x0 : FVec Ideal S8x360x128 .f32) (b : Fin 8) (p q : Fin 360) (k : Fin 128) :
    val_main_v4 (F := Ideal) x0 (ix4 b p q (⟨128 + k.val, by omega⟩ : Fin 256)) = x0 (ix3 b p k) := by
  unfold val_main_v4
  refine (concatenate_pair_apply_right (3 : Fin 4) (val_main_v1 (F := Ideal) x0) (val_main_v3 (F := Ideal) x0)
    concatenates_S8x360x360x128_S8x360x360x128_S8x360x360x256_d3 (ix4 b p q (⟨128 + k.val, by omega⟩ : Fin 256)) rfl rfl (ix4 b p q k)
    (fun ax hax => by
      match ax with
      | ⟨0, _⟩ => rfl
      | ⟨1, _⟩ => rfl
      | ⟨2, _⟩ => rfl
      | ⟨3, _⟩ => exact absurd rfl hax)
    (by show k.val + 128 = 128 + k.val; omega)).trans ?_
  rw [val_main_v3_apply, val_main_v2_apply, receiver_idx_eq]

/-! ## The stages at coordinates -/

/-- The 256-wide contraction at `(b, p, q, d)`: the receiver's 128-wide contraction plus the sender's. -/
theorem dot5_apply (x0 : FVec Ideal S8x360x128 .f32) (x1 : FVec Ideal S128x256 .f32) (b : Fin 8) (p q : Fin 360) (d : Fin 128) :
    val_main_v5 (F := Ideal) x0 x1 (ix4 b p q d)
      = (∑ k : Fin 128, x0 (ix3 b p k) * x1 (ix2 d (⟨128 + k.val, by omega⟩ : Fin 256)))
        + (∑ k : Fin 128, x0 (ix3 b q k) * x1 (ix2 d (⟨k.val, by omega⟩ : Fin 256))) := by
  rw [val_main_v5_apply, sum_fin256_split, add_comm]
  refine congrArg₂ (· + ·) (Finset.sum_congr rfl fun k _ => ?_) (Finset.sum_congr rfl fun k _ => ?_)
  · rw [lidx5_eq, ridx5_eq, cat_receiver]
  · rw [lidx5_eq, ridx5_eq, cat_sender]

/-- The rectified hidden feature `d` of the pair. -/
theorem hidden_apply (x0 : FVec Ideal S8x360x128 .f32) (x1 : FVec Ideal S128x256 .f32) (x2 : FVec Ideal S128 .f32)
    (b : Fin 8) (p q : Fin 360) (d : Fin 128) :
    val_main_v9 (F := Ideal) x0 x1 x2 (ix4 b p q d)
      = max (((∑ k : Fin 128, x0 (ix3 b p k) * x1 (ix2 d (⟨128 + k.val, by omega⟩ : Fin 256)))
              + (∑ k : Fin 128, x0 (ix3 b q k) * x1 (ix2 d (⟨k.val, by omega⟩ : Fin 256))))
            + x2 (ix1 d)) floor0 := by
  rw [val_main_v9_apply, val_main_v8_apply, dot5_apply, val_main_v7_apply, val_main_v6_apply, bias_idx_eq,
    val_main_call0_v0_apply, val_main_call0_cst_apply]
  rfl

/-- THE REFERENCE'S RESULT is the specification. -/
theorem ref_eq (x0 : FVec Ideal S8x360x128 .f32) (x1 : FVec Ideal S128x256 .f32) (x2 : FVec Ideal S128 .f32)
    (x3 : FVec Ideal S1x128 .f32) (x4 : FVec Ideal S1 .f32) :
    val_main_v14 (F := Ideal) x0 x1 x2 x3 x4 = edge x0 x1 x2 x3 x4 := by
  funext i
  obtain ⟨b, p, q, u, rfl⟩ : ∃ (b : Fin 8) (p q : Fin 360) (u : Fin 1), i = ix4 b p q u := ⟨i 0, i 1, i 2, i 3, eq_ix4 i⟩
  obtain rfl : u = 0 := Subsingleton.elim _ _
  rw [edge_apply, val_main_v14_apply, val_main_v13_apply, val_main_v10_apply, val_main_v12_apply, val_main_v11_apply,
    scalar_idx_eq, val_main_call1_v0_apply, val_main_call1_cst_apply]
  unfold edgeAt
  refine congrArg₂ max (congrArg₂ (· + ·) (Finset.sum_congr rfl fun d _ => ?_) rfl) rfl
  rw [lidx10_eq, ridx10_eq, hidden_apply]

end Cert.ReferenceIdeal.RefValue

end
-- ==== Proof.lean ====
/- Pairwise edge scores of a graph network, computed two ways, are one function of the inputs on the extended reals.

   For each of 8 graphs with 360 nodes and 128-feature embeddings `e`, and each ordered pair (receiver `p`, sender `q`):
       hidden[d] = max( Σ_{g<256} [e[q] ‖ e[p]][g] · W[d, g] + c[d] , 0 ),     score = max( Σ_d hidden[d] · v[0, d] + s[0] , 0 ).
   The reference builds the 256-wide concatenation per pair and contracts it. The kernel program projects every node once
   by each 128-column half of `W` (one region, a block product per graph), then per pair adds the receiver's and the
   sender's projections, the bias, rectifies, weighs, sums the lanes, adds the scalar and rectifies (a second region, tiled
   over 40 receiver rows), and re-lays the `[8, 360, 360]` scores with a trailing unit axis.

   The two agree because a sum over 256 indices is the sum over the first 128 plus the sum over the last 128, and because
   addition on the extended reals is commutative; narrowing to bf16 is the identity there. No finiteness of the inputs is
   needed, so the precondition is never opened. Both sides are brought to the one function `EdgeSpec.edge` of the five
   argument arrays: the kernel's result buffer by reading the fold of buffer contents back through the program's four
   stretches (KernelValue, over ProjValue, EdgeValue and HostValue), the reference's by its stage-by-stage reading at an
   index (RefValue). The three frames are the generated ones (the reference's is its run with the result dropped), and
   the idealization rewrote nothing, so that conjunct is trivial. -/
import proofs.«170377_j28613072126235_1_alg».proof.Defs
import proofs.«170377_j28613072126235_1_alg».proof.Proof.Gen.Kernel
import proofs.«170377_j28613072126235_1_alg».proof.Proof.Gen.Kernel.Skeleton
import proofs.«170377_j28613072126235_1_alg».proof.Proof.Gen.Kernel.Launch
import proofs.«170377_j28613072126235_1_alg».proof.Proof.Gen.Kernel.Points
import proofs.«170377_j28613072126235_1_alg».proof.Proof.Gen.Kernel.Frame
import proofs.«170377_j28613072126235_1_alg».proof.Proof.Gen.KernelIdeal
import proofs.«170377_j28613072126235_1_alg».proof.Proof.Gen.KernelIdeal.Skeleton
import proofs.«170377_j28613072126235_1_alg».proof.Proof.Gen.KernelIdeal.Launch
import proofs.«170377_j28613072126235_1_alg».proof.Proof.Gen.KernelIdeal.Points
import proofs.«170377_j28613072126235_1_alg».proof.Proof.Gen.KernelIdeal.Frame
import proofs.«170377_j28613072126235_1_alg».proof.Proof.Gen.ReferenceIdeal
import proofs.«170377_j28613072126235_1_alg».proof.Proof.Gen.Pre_finite_inputs
import proofs.«170377_j28613072126235_1_alg».proof.Proof.Gen.ReferenceIdeal.Run
import proofs.«170377_j28613072126235_1_alg».proof.Proof.Gen.ReferenceIdeal.Read
import proofs.«170377_j28613072126235_1_alg».proof.Proof.RunNamed
import proofs.«170377_j28613072126235_1_alg».proof.Proof.KernelValue
import proofs.«170377_j28613072126235_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result `EdgeSpec.edge` of them. -/
theorem algebraic : Cert.algebraic_KernelIdeal_ReferenceIdeal := by
  intro m ρ m' ρ' _ hagree
  refine ⟨fun c => Cert.EdgeSpec.edge
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KernelValue.result_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v14_eq _ _ _ _ _).trans (Cert.ReferenceIdeal.RefValue.ref_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
